-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x1024 .f32) (main_arg1 : FVec F S1024x16 .f32) (main_arg2 : FVec F S1024x16 .f32) (main_arg3 : FVec F S16384x4096 .f32) (main_arg4 : FVec F S4096 .f32) (main_arg5 : FVec F S4096x1000 .f32) (main_arg6 : FVec F S1000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_arg6 main_v13 main_v16
-- ==== Kernel.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S16x1024 : Shape := ⟨2, ![16, 1024]⟩
abbrev S1024x16x4096 : Shape := ⟨3, ![1024, 16, 4096]⟩
abbrev S1x4096 : Shape := ⟨2, ![1, 4096]⟩
abbrev S1x1000 : Shape := ⟨2, ![1, 1000]⟩
abbrev S4096x4096 : Shape := ⟨2, ![4096, 4096]⟩
abbrev S256x1024 : Shape := ⟨2, ![256, 1024]⟩
abbrev S1024x16x256 : Shape := ⟨3, ![1024, 16, 256]⟩
abbrev S1x256 : Shape := ⟨2, ![1, 256]⟩
abbrev S256x256 : Shape := ⟨2, ![256, 256]⟩
abbrev S1x1024 : Shape := ⟨2, ![1, 1024]⟩
abbrev S1024 : Shape := ⟨1, ![1024]⟩
abbrev S1024x1x256 : Shape := ⟨3, ![1024, 1, 256]⟩
abbrev S1024x256 : Shape := ⟨2, ![1024, 256]⟩
abbrev S512x4096 : Shape := ⟨2, ![512, 4096]⟩
abbrev S512x1000 : Shape := ⟨2, ![512, 1000]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x16, .f32⟩
  | .hbm, ⟨2, _⟩ => ⟨S1024x16, .f32⟩
  | .hbm, ⟨3, _⟩ => ⟨S16384x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S16x1024, .f32⟩
  | .hbm, ⟨8, _⟩ => ⟨S16x1024, .f32⟩
  | .hbm, ⟨9, _⟩ => ⟨S16384x4096, .bf16⟩
  | .hbm, ⟨10, _⟩ => ⟨S1024x16x4096, .bf16⟩
  | .hbm, ⟨11, _⟩ => ⟨S1x4096, .f32⟩
  | .hbm, ⟨12, _⟩ => ⟨S4096x1000, .bf16⟩
  | .hbm, ⟨13, _⟩ => ⟨S1x1000, .f32⟩
  | .hbm, ⟨14, _⟩ => ⟨S4096x4096, .bf16⟩
  | .hbm, ⟨15, _⟩ => ⟨S4096x1000, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1024x16x256, .bf16⟩
  | .local _ .vmem, ⟨5, _⟩ => ⟨S1024x16x256, .bf16⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | .local _ .vmem, ⟨10, _⟩ => ⟨S512x4096, .bf16⟩
  | .local _ .vmem, ⟨11, _⟩ => ⟨S512x4096, .bf16⟩
  | .local _ .vmem, ⟨12, _⟩ => ⟨S4096x1000, .bf16⟩
  | .local _ .vmem, ⟨13, _⟩ => ⟨S1x1000, .f32⟩
  | .local _ .vmem, ⟨14, _⟩ => ⟨S512x1000, .f32⟩
  | .local _ .vmem, ⟨15, _⟩ => ⟨S512x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S1024x16_S16x1024_1_0 : S1024x16.Transposes [1, 0] S16x1024
  bitsLt_bf16_f32 : FTy.bits .bf16 < FTy.bits .f32
  shapeCasts_S16384x4096_S1024x16x4096 : S16384x4096.ShapeCasts S1024x16x4096
  shapeCasts_S4096_S1x4096 : S4096.ShapeCasts S1x4096
  shapeCasts_S1000_S1x1000 : S1000.ShapeCasts S1x1000
  inb_S256x1024_S256x1024_0_0 : ∀ a, (![0, 0] : Fin 2 → Nat) a + S256x1024.size a ≤ S256x1024.size a
  h_S256x1024 : 0 < S256x1024.numel
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S1024x16x256_S1024x1x256_0_0_0 : ∀ a, (![0, 0, 0] : Fin 3 → Nat) a + S1024x1x256.size a ≤ S1024x16x256.size a
  h_S1024x1x256 : 0 < S1024x1x256.numel
  shapeCasts_S1024x1x256_S1024x256 : S1024x1x256.ShapeCasts S1024x256
  inb_S16x1024_S1x1024_1_0 : ∀ a, (![1, 0] : Fin 2 → Nat) a + S1x1024.size a ≤ S16x1024.size a
  inb_S1024x16x256_S1024x1x256_0_1_0 : ∀ a, (![0, 1, 0] : Fin 3 → Nat) a + S1024x1x256.size a ≤ S1024x16x256.size a
  inb_S16x1024_S1x1024_2_0 : ∀ a, (![2, 0] : Fin 2 → Nat) a + S1x1024.size a ≤ S16x1024.size a
  inb_S1024x16x256_S1024x1x256_0_2_0 : ∀ a, (![0, 2, 0] : Fin 3 → Nat) a + S1024x1x256.size a ≤ S1024x16x256.size a
  inb_S16x1024_S1x1024_3_0 : ∀ a, (![3, 0] : Fin 2 → Nat) a + S1x1024.size a ≤ S16x1024.size a
  inb_S1024x16x256_S1024x1x256_0_3_0 : ∀ a, (![0, 3, 0] : Fin 3 → Nat) a + S1024x1x256.size a ≤ S1024x16x256.size a
  inb_S16x1024_S1x1024_4_0 : ∀ a, (![4, 0] : Fin 2 → Nat) a + S1x1024.size a ≤ S16x1024.size a
  inb_S1024x16x256_S1024x1x256_0_4_0 : ∀ a, (![0, 4, 0] : Fin 3 → Nat) a + S1024x1x256.size a ≤ S1024x16x256.size a
  inb_S16x1024_S1x1024_5_0 : ∀ a, (![5, 0] : Fin 2 → Nat) a + S1x1024.size a ≤ S16x1024.size a
  inb_S1024x16x256_S1024x1x256_0_5_0 : ∀ a, (![0, 5, 0] : Fin 3 → Nat) a + S1024x1x256.size a ≤ S1024x16x256.size a
  inb_S16x1024_S1x1024_6_0 : ∀ a, (![6, 0] : Fin 2 → Nat) a + S1x1024.size a ≤ S16x1024.size a
  inb_S1024x16x256_S1024x1x256_0_6_0 : ∀ a, (![0, 6, 0] : Fin 3 → Nat) a + S1024x1x256.size a ≤ S1024x16x256.size a
  inb_S16x1024_S1x1024_7_0 : ∀ a, (![7, 0] : Fin 2 → Nat) a + S1x1024.size a ≤ S16x1024.size a
  inb_S1024x16x256_S1024x1x256_0_7_0 : ∀ a, (![0, 7, 0] : Fin 3 → Nat) a + S1024x1x256.size a ≤ S1024x16x256.size a
  inb_S16x1024_S1x1024_8_0 : ∀ a, (![8, 0] : Fin 2 → Nat) a + S1x1024.size a ≤ S16x1024.size a
  inb_S1024x16x256_S1024x1x256_0_8_0 : ∀ a, (![0, 8, 0] : Fin 3 → Nat) a + S1024x1x256.size a ≤ S1024x16x256.size a
  inb_S16x1024_S1x1024_9_0 : ∀ a, (![9, 0] : Fin 2 → Nat) a + S1x1024.size a ≤ S16x1024.size a
  inb_S1024x16x256_S1024x1x256_0_9_0 : ∀ a, (![0, 9, 0] : Fin 3 → Nat) a + S1024x1x256.size a ≤ S1024x16x256.size a
  inb_S16x1024_S1x1024_10_0 : ∀ a, (![10, 0] : Fin 2 → Nat) a + S1x1024.size a ≤ S16x1024.size a
  inb_S1024x16x256_S1024x1x256_0_10_0 : ∀ a, (![0, 10, 0] : Fin 3 → Nat) a + S1024x1x256.size a ≤ S1024x16x256.size a
  inb_S16x1024_S1x1024_11_0 : ∀ a, (![11, 0] : Fin 2 → Nat) a + S1x1024.size a ≤ S16x1024.size a
  inb_S1024x16x256_S1024x1x256_0_11_0 : ∀ a, (![0, 11, 0] : Fin 3 → Nat) a + S1024x1x256.size a ≤ S1024x16x256.size a
  inb_S16x1024_S1x1024_12_0 : ∀ a, (![12, 0] : Fin 2 → Nat) a + S1x1024.size a ≤ S16x1024.size a
  inb_S1024x16x256_S1024x1x256_0_12_0 : ∀ a, (![0, 12, 0] : Fin 3 → Nat) a + S1024x1x256.size a ≤ S1024x16x256.size a
  inb_S16x1024_S1x1024_13_0 : ∀ a, (![13, 0] : Fin 2 → Nat) a + S1x1024.size a ≤ S16x1024.size a
  inb_S1024x16x256_S1024x1x256_0_13_0 : ∀ a, (![0, 13, 0] : Fin 3 → Nat) a + S1024x1x256.size a ≤ S1024x16x256.size a
  inb_S16x1024_S1x1024_14_0 : ∀ a, (![14, 0] : Fin 2 → Nat) a + S1x1024.size a ≤ S16x1024.size a
  inb_S1024x16x256_S1024x1x256_0_14_0 : ∀ a, (![0, 14, 0] : Fin 3 → Nat) a + S1024x1x256.size a ≤ S1024x16x256.size a
  inb_S16x1024_S1x1024_15_0 : ∀ a, (![15, 0] : Fin 2 → Nat) a + S1x1024.size a ≤ S16x1024.size a
  inb_S1024x16x256_S1024x1x256_0_15_0 : ∀ a, (![0, 15, 0] : Fin 3 → Nat) a + S1024x1x256.size a ≤ S1024x16x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1000_S4096x1000_0_0 : ∀ a, (![0, 0] : Fin 2 → Nat) a + S4096x1000.size a ≤ S4096x1000.size a
  h_S4096x1000 : 0 < S4096x1000.numel
  shapeCasts_S4096x1000_S4096x1000 : S4096x1000.ShapeCasts S4096x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S256x1024_S1024x256_S256x256_1_0_0_1_n_n_wf : DotDims.WF S256x1024 S1024x256 S256x256 [1] [0] [0] [1] [] []
  dot_S512x4096_S4096x1000_S512x1000_1_0_0_1_n_n_wf : DotDims.WF S512x4096 S4096x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16x256.size a ≤ S1024x16x4096.size a
  hwx0_3 : ∀ i : grid0.Coords, EltTy.bits .bf16 = 32 ∨ (Rect.block (s := S1024x16x4096) S1024x16x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x4096.size a
  hwx0_5 : ∀ i : grid0.Coords, EltTy.bits .bf16 = 32 ∨ (Rect.block (s := S4096x4096) S256x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1000.size a ≤ S4096x1000.size a
  hwx1_1 : ∀ i : grid1.Coords, EltTy.bits .bf16 = 32 ∨ (Rect.block (s := S4096x1000) S4096x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S4096x1000.size a
  hwx1_3 : ∀ i : grid1.Coords, EltTy.bits .f32 = 32 ∨ (Rect.block (s := S4096x1000) S512x1000.size (cc1_transform_3 i) (hinb1_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S512x4096_S4096x1000_S512x1000_1_0_0_1_n_n : DotDims S512x4096 S4096x1000 S512x1000 where
  lhsContracting := [1]
  rhsContracting := [0]
  lhsNonContracting := [0]
  rhsNonContracting := [1]
  lhsBatch := []
  rhsBatch := []
  wf := dot_S512x4096_S4096x1000_S512x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S4096x1024x1 : Shape := ⟨3, ![4096, 1024, 1]⟩
abbrev S1x1024x16 : Shape := ⟨3, ![1, 1024, 16]⟩
abbrev S4096x1024x16 : Shape := ⟨3, ![4096, 1024, 16]⟩
abbrev S4096x16384 : Shape := ⟨2, ![4096, 16384]⟩
abbrev S4096x4096 : Shape := ⟨2, ![4096, 4096]⟩
abbrev S1x4096 : Shape := ⟨2, ![1, 4096]⟩
abbrev S_ : Shape := ⟨0, ![]⟩
abbrev S1x1000 : Shape := ⟨2, ![1, 1000]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x16, .f32⟩
  | .hbm, ⟨2, _⟩ => ⟨S1024x16, .f32⟩
  | .hbm, ⟨3, _⟩ => ⟨S16384x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x1024x1, .f32⟩
  | .hbm, ⟨8, _⟩ => ⟨S1x1024x16, .f32⟩
  | .hbm, ⟨9, _⟩ => ⟨S4096x1024x16, .f32⟩
  | .hbm, ⟨10, _⟩ => ⟨S4096x1024x16, .f32⟩
  | .hbm, ⟨11, _⟩ => ⟨S4096x1024x16, .f32⟩
  | .hbm, ⟨12, _⟩ => ⟨S1x1024x16, .f32⟩
  | .hbm, ⟨13, _⟩ => ⟨S4096x1024x16, .f32⟩
  | .hbm, ⟨14, _⟩ => ⟨S4096x1024x16, .f32⟩
  | .hbm, ⟨15, _⟩ => ⟨S4096x1024x16, .f32⟩
  | .hbm, ⟨16, _⟩ => ⟨S4096x16384, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1000, .f32⟩
  | .hbm, ⟨30, _⟩ => ⟨S1x1000, .f32⟩
  | .hbm, ⟨31, _⟩ => ⟨S4096x1000, .f32⟩
  | .hbm, ⟨32, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S4096x1024_S4096x1024x1_0_1 : S4096x1024.BroadcastsInDim S4096x1024x1 (![0, 1] : Fin 2 → Fin S4096x1024x1.rank)
  bcast_S1024x16_S1x1024x16_1_2 : S1024x16.BroadcastsInDim S1x1024x16 (![1, 2] : Fin 2 → Fin S1x1024x16.rank)
  bcast_S4096x1024x1_S4096x1024x16_0_1_2 : S4096x1024x1.BroadcastsInDim S4096x1024x16 (![0, 1, 2] : Fin 3 → Fin S4096x1024x16.rank)
  bcast_S1x1024x16_S4096x1024x16_0_1_2 : S1x1024x16.BroadcastsInDim S4096x1024x16 (![0, 1, 2] : Fin 3 → Fin S4096x1024x16.rank)
  shapeCasts_S4096x1024x16_S4096x16384 : S4096x1024x16.ShapeCasts S4096x16384
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x16384_S16384x4096_S4096x4096_1_0_0_1_n_n_wf : DotDims.WF S4096x16384 S16384x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.Spec.lean ====
/-
  The mathematics of the classifier, stated once over plain functions of coordinates, and the one law that joins the
  two programs.

  A row r of the input is expanded, feature i by feature i and basis b by basis b, to  tanh((x r i − c) · s)  with the
  centre c and the scale s of the pair (i, b); the hidden pre-activation of row r at unit j is the sum over ALL pairs
  (i, b) of that number times a weight, plus a bias; the hidden activation is the logistic function of it; the result
  at class n is the sum over the hidden units j of the activation times a weight, plus a bias.

  One program sums the pairs basis by basis (sixteen sums over the 1024 features, added up one after the other from
  zero); the other lays the pairs out on ONE axis of length 16384, the pair (i, b) at position 16·i + b, and sums along
  it. A finite sum in a commutative monoid does not depend on the order or the grouping of its terms, so the two are
  equal on the extended reals with no side condition: `sum_pairs`.
-/
import Idealize.ShloMosaic.PureOps.Ideal
import Idealize.ShloMosaic.Lib.ValueIdx
import Mathlib.Algebra.BigOperators.Fin
import Mathlib.Logic.Equiv.Fin.Basic

noncomputable section

namespace Cert.Kan

open Idealize.ShloMosaic Idealize.ShloMosaic.ValueIdx

/-- The position of the pair (feature i, basis b) on the flattened axis: 16·i + b. -/
def pairPos (i : Fin 1024) (b : Fin 16) : Fin 16384 := ⟨i.val * 16 + b.val, by have := i.isLt; have := b.isLt; omega⟩

/-- The hidden pre-activation of row r at unit j: the sixteen per-basis sums over the features, added up, plus the bias.
    `cT b i`, `sT b i` are the centre and scale of the pair (i, b); `w i b j` its weight into unit j. -/
def hidF (x : Fin 4096 → Fin 1024 → EReal) (cT sT : Fin 16 → Fin 1024 → EReal) (w : Fin 1024 → Fin 16 → Fin 4096 → EReal)
    (bias : Fin 4096 → EReal) (r : Fin 4096) (j : Fin 4096) : EReal :=
  (∑ b : Fin 16, ∑ i : Fin 1024, Ideal.tanh ((x r i - cT b i) * sT b i) * w i b j) + bias j

/-- The hidden activation: the logistic function of the pre-activation. -/
def phiF (x : Fin 4096 → Fin 1024 → EReal) (cT sT : Fin 16 → Fin 1024 → EReal) (w : Fin 1024 → Fin 16 → Fin 4096 → EReal)
    (bias : Fin 4096 → EReal) (r : Fin 4096) (j : Fin 4096) : EReal :=
  Ideal.logistic (hidF x cT sT w bias r j)

/-- The head: row r of the activations against column n of the head's weights, plus the head's bias. -/
def logitsF (p : Fin 4096 → Fin 4096 → EReal) (wh : Fin 4096 → Fin 1000 → EReal) (bh : Fin 1000 → EReal)
    (r : Fin 4096) (n : Fin 1000) : EReal :=
  (∑ j : Fin 4096, p r j * wh j n) + bh n

/-- The whole classifier as ONE function of its seven argument arrays, entry by entry. -/
def result (x : (⟨2, ![4096, 1024]⟩ : Shape).Idx → EReal) (c s : (⟨2, ![1024, 16]⟩ : Shape).Idx → EReal)
    (wb : (⟨2, ![16384, 4096]⟩ : Shape).Idx → EReal) (bb : (⟨1, ![4096]⟩ : Shape).Idx → EReal)
    (wh : (⟨2, ![4096, 1000]⟩ : Shape).Idx → EReal) (bh : (⟨1, ![1000]⟩ : Shape).Idx → EReal) :
    (⟨2, ![4096, 1000]⟩ : Shape).Idx → EReal := fun o =>
  logitsF (phiF (fun r i => x (ix2 r i)) (fun b i => c (ix2 i b)) (fun b i => s (ix2 i b))
      (fun i b j => wb (ix2 (pairPos i b) j)) (fun j => bb (ix1 j)))
    (fun j n => wh (ix2 j n)) (fun n => bh (ix1 n)) (o 0) (o 1)

/-- A sum along the flattened axis of pairs is the sum over the bases of the sums over the features. -/
theorem sum_pairs {M : Type*} [AddCommMonoid M] (f : Fin 16384 → M) (g : Fin 1024 → Fin 16 → M)
    (h : ∀ i b, f (pairPos i b) = g i b) : ∑ k : Fin 16384, f k = ∑ b : Fin 16, ∑ i : Fin 1024, g i b := by
  rw [Finset.sum_comm]
  rw [← Fintype.sum_prod_type']
  rw [← Equiv.sum_comp (finProdFinEquiv (m := 1024) (n := 16)) f]
  refine Finset.sum_congr rfl fun p _ => ?_
  rw [← h p.1 p.2]
  congr 1
  apply Fin.ext
  show p.2.val + 16 * p.1.val = p.1.val * 16 + p.2.val
  omega

/-- Sixteen terms added one after the other from zero are their sum. -/
theorem chain16 {M : Type*} [AddCommMonoid M] (d : Fin 16 → M) :
    0 + d 0 + d 1 + d 2 + d 3 + d 4 + d 5 + d 6 + d 7 + d 8 + d 9 + d 10 + d 11 + d 12 + d 13 + d 14 + d 15 = ∑ b : Fin 16, d b := by
  simp only [Fin.sum_univ_succ, Fin.sum_univ_zero, zero_add, add_zero]
  simp only [add_assoc]
  rfl

/-- The f32 word of 1.0 is the number one. -/
theorem ofBits_one : Ideal.ofBits .f32 0x3F800000#32 = 1 := by
  simp [Ideal.ofBits, Ideal.ieee, -EReal.coe_mul]
  norm_num

end Cert.Kan

end
-- ==== Proof.RefValue.lean ====
/-
  The reference program's result, entry by entry, is the classifier's function `Cert.Kan.result` of the seven arguments.
-/
import proofs.«172397_j53283364274889_1_alg».proof.Proof.Gen.ReferenceIdeal.Read
import proofs.«172397_j53283364274889_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The expanded features, read on the flattened axis at the position of the pair (i, b), in row r. -/
theorem feats_at (x0 : FVec Ideal S4096x1024 .f32) (x1 x2 : FVec Ideal S1024x16 .f32)
    (r j : Fin 4096) (i : Fin 1024) (b : Fin 16) :
    val_main_v9 (F := Ideal) x0 x1 x2 (lidx_main_v10 (ix2 r j) (Cert.Kan.pairPos i b))
      = Ideal.tanh ((x0 (ix2 r i) - x1 (ix2 i b)) * x2 (ix2 i b)) := by
  have hr := r.isLt
  have hi := i.isLt
  have hb := b.isLt
  rw [val_main_v9_apply, val_main_v8_apply, val_main_v7_apply, val_main_v4_apply, val_main_v2_apply, val_main_v0_apply,
    val_main_v3_apply, val_main_v1_apply, val_main_v6_apply, val_main_v5_apply]
  rw [Ideal.hostUnary_tanh_def, Ideal.mulf_def, Ideal.subf_def]
  have e0 : idx_main_v0 (idx_main_v2 (idx_main_v9 (lidx_main_v10 (ix2 r j) (Cert.Kan.pairPos i b)))) = ix2 r i :=
    funext fun a => Fin.ext (by
      match a with
      | ⟨0, _⟩ => show (r.val * 16384 + (i.val * 16 + b.val)) / 16384 = r.val; omega
      | ⟨1, _⟩ => show (r.val * 16384 + (i.val * 16 + b.val)) / 16 % 1024 = i.val; omega)
  have e1 : idx_main_v1 (idx_main_v3 (idx_main_v9 (lidx_main_v10 (ix2 r j) (Cert.Kan.pairPos i b)))) = ix2 i b :=
    funext fun a => Fin.ext (by
      match a with
      | ⟨0, _⟩ => show (r.val * 16384 + (i.val * 16 + b.val)) / 16 % 1024 = i.val; omega
      | ⟨1, _⟩ => show (r.val * 16384 + (i.val * 16 + b.val)) % 16 = b.val; omega)
  have e2 : idx_main_v5 (idx_main_v6 (idx_main_v9 (lidx_main_v10 (ix2 r j) (Cert.Kan.pairPos i b)))) = ix2 i b :=
    funext fun a => Fin.ext (by
      match a with
      | ⟨0, _⟩ => show (r.val * 16384 + (i.val * 16 + b.val)) / 16 % 1024 = i.val; omega
      | ⟨1, _⟩ => show (r.val * 16384 + (i.val * 16 + b.val)) % 16 = b.val; omega)
  rw [e0, e1, e2]

/-- The hidden pre-activation of row r at unit j is the classifier's. -/
theorem hid_at (x0 : FVec Ideal S4096x1024 .f32) (x1 x2 : FVec Ideal S1024x16 .f32) (x3 : FVec Ideal S16384x4096 .f32)
    (x4 : FVec Ideal S4096 .f32) (r j : Fin 4096) :
    val_main_v13 (F := Ideal) x0 x1 x2 x3 x4 (ix2 r j)
      = Cert.Kan.hidF (fun r i => x0 (ix2 r i)) (fun b i => x1 (ix2 i b)) (fun b i => x2 (ix2 i b))
          (fun i b j => x3 (ix2 (Cert.Kan.pairPos i b) j)) (fun j => x4 (ix1 j)) r j := by
  rw [val_main_v13_apply, Ideal.addf_def, val_main_v10_apply, val_main_v12_apply, val_main_v11_apply]
  unfold Cert.Kan.hidF
  have eb : idx_main_v11 (idx_main_v12 (ix2 r j)) = ix1 j :=
    funext fun a => by match a with | ⟨0, _⟩ => rfl
  rw [eb]
  refine congrArg (fun t => t + x4 (ix1 j)) ?_
  refine Cert.Kan.sum_pairs _
    (fun i b => Ideal.tanh ((x0 (ix2 r i) - x1 (ix2 i b)) * x2 (ix2 i b)) * x3 (ix2 (Cert.Kan.pairPos i b) j))
    (fun i b => ?_)
  have er : ridx_main_v10 (ix2 r j) (Cert.Kan.pairPos i b) = ix2 (Cert.Kan.pairPos i b) j :=
    funext fun a => by match a with | ⟨0, _⟩ => rfl | ⟨1, _⟩ => rfl
  show val_main_v9 (F := Ideal) x0 x1 x2 (lidx_main_v10 (ix2 r j) (Cert.Kan.pairPos i b))
      * x3 (ridx_main_v10 (ix2 r j) (Cert.Kan.pairPos i b)) = _
  rw [feats_at, er]

/-- The hidden activation of row r at unit j is the classifier's: one over one plus the exponential of the negated
    pre-activation is the logistic function. -/
theorem phi_at (x0 : FVec Ideal S4096x1024 .f32) (x1 x2 : FVec Ideal S1024x16 .f32) (x3 : FVec Ideal S16384x4096 .f32)
    (x4 : FVec Ideal S4096 .f32) (r j : Fin 4096) :
    val_main_v19 (F := Ideal) x0 x1 x2 x3 x4 (ix2 r j)
      = Cert.Kan.phiF (fun r i => x0 (ix2 r i)) (fun b i => x1 (ix2 i b)) (fun b i => x2 (ix2 i b))
          (fun i b j => x3 (ix2 (Cert.Kan.pairPos i b) j)) (fun j => x4 (ix1 j)) r j := by
  rw [val_main_v19_apply, val_main_v18_apply, val_main_cst_0_apply, val_main_v17_apply, val_main_v16_apply,
    val_main_cst_apply, val_main_v15_apply, val_main_v14_apply, hid_at]
  rw [Ideal.hostDivf_def, Ideal.addf_def, Ideal.hostUnary_exp_def, Ideal.hostNegf_def, Ideal.negf_def, Ideal.ofBits_def,
    Cert.Kan.ofBits_one]
  rfl

theorem ref_result (x0 : FVec Ideal S4096x1024 .f32) (x1 x2 : FVec Ideal S1024x16 .f32) (x3 : FVec Ideal S16384x4096 .f32)
    (x4 : FVec Ideal S4096 .f32) (x5 : FVec Ideal S4096x1000 .f32) (x6 : FVec Ideal S1000 .f32) :
    val_main_v23 (F := Ideal) x0 x1 x2 x3 x4 x5 x6 = Cert.Kan.result x0 x1 x2 x3 x4 x5 x6 := by
  funext o
  obtain ⟨r, n, rfl⟩ : ∃ (r : Fin 4096) (n : Fin 1000), o = ix2 r n := ⟨o 0, o 1, eq_ix2 o⟩
  unfold Cert.Kan.result Cert.Kan.logitsF
  rw [val_main_v23_apply, Ideal.addf_def, val_main_v20_apply, val_main_v22_apply, val_main_v21_apply]
  have eb : idx_main_v21 (idx_main_v22 (ix2 r n)) = ix1 n :=
    funext fun a => by match a with | ⟨0, _⟩ => rfl
  rw [eb]
  refine congrArg (fun t => t + x6 (ix1 n)) ?_
  refine Finset.sum_congr rfl fun j _ => ?_
  have el : lidx_main_v20 (ix2 r n) j = ix2 r j :=
    funext fun a => by match a with | ⟨0, _⟩ => rfl | ⟨1, _⟩ => rfl
  have er : ridx_main_v20 (ix2 r n) j = ix2 j n :=
    funext fun a => by match a with | ⟨0, _⟩ => rfl | ⟨1, _⟩ => rfl
  rw [el, er, phi_at]

end Cert.ReferenceIdeal.RefValue

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.BasisBody.lean ====
/-
  The first kernel's body as ONE pure function of its five loaded blocks, and that function read at an entry.

  For each of the sixteen bases b the body forms the 256×1024 block of features  tanh((x − c_b) · s_b)  (the centre row c_b and
  the scale row s_b broadcast down the 256 rows), multiplies it by the 1024×256 slab of weights of that basis, and adds the
  sixteen products up one after the other from zero; then it adds the bias row and applies the logistic function. Changes
  of float format are the identity on the extended reals, so at an entry (p, q) the block holds
      logistic( Σ_b Σ_i tanh((x p i − c_b i) · s_b i) · w_b i q  +  bias q ).
-/
import proofs.«172397_j53283364274889_1_alg».proof.Proof.Gen.KernelIdeal.Frame
import proofs.«172397_j53283364274889_1_alg».proof.Proof.Spec
import proofs.«172397_j53283364274889_1_alg».proof.Proof.LibPlainMatmul
import Idealize.ShloMosaic.Lib.Pipeline.Value
import Idealize.ShloMosaic.Lib.ValueLayout

set_option maxRecDepth 16384

noncomputable section

namespace Cert.KernelIdeal.Basis

open Cert.KernelIdeal Cert.KernelIdeal.Gen
open Idealize.ShloMosaic Idealize.ShloMosaic.ValueIdx

section Vocabulary
variable {F : FTy → Type} [FloatOps F]

/-- One basis's block of features: tanh((x − c) · s), the centre row and the scale row broadcast down the rows. -/
def feats (x : Vec F S256x1024 .f32) (cr sr : Vec F S1x1024 .f32) : FVec F S256x1024 .bf16 :=
  truncf .bf16 (tanh (mulf (subf x (broadcastTo S256x1024 (shapeCast S1x1024 (shapeCast S1024 cr shapeCasts_S1x1024_S1024) shapeCasts_S1024_S1x1024) broadcasts_S1x1024_S256x1024))
    (broadcastTo S256x1024 (shapeCast S1x1024 (shapeCast S1024 sr shapeCasts_S1x1024_S1024) shapeCasts_S1024_S1x1024) broadcasts_S1x1024_S256x1024))) bitsLt_bf16_f32

/-- A block of features against one basis's slab of weights, into a zero accumulator. -/
def prod (f : FVec F S256x1024 .bf16) (w : Vec F S1024x1x256 .bf16) : FVec F S256x256 .f32 :=
  matmul dot_S256x1024_S1024x256_S256x256_1_0_0_1_n_n none f (shapeCast S1024x256 w shapeCasts_S1024x1x256_S1024x256) (constant S256x256 .f32 0x00000000#32)

/-- One basis's contribution to the hidden pre-activations. -/
def mm (x : Vec F S256x1024 .f32) (cr sr : Vec F S1x1024 .f32) (w : Vec F S1024x1x256 .bf16) : FVec F S256x256 .f32 :=
  prod (feats x cr sr) w

/-- The whole body: the sixteen contributions added up from zero, the bias row, the logistic function. -/
def body (x : Vec F S256x1024 .f32) (c s : Fin 16 → Vec F S1x1024 .f32) (w : Fin 16 → Vec F S1024x1x256 .bf16) (bias : Vec F S1x256 .f32) :
    FVec F S256x256 .bf16 :=
  truncf .bf16 (logistic (addf (addf (addf (addf (addf (addf (addf (addf (addf (addf (addf (addf (addf (addf (addf (addf (addf (broadcast S256x256 (Scalar.ofBits .f32 0x00000000#32)) (mm x (c 0) (s 0) (w 0))) (mm x (c 1) (s 1) (w 1))) (mm x (c 2) (s 2) (w 2))) (mm x (c 3) (s 3) (w 3))) (mm x (c 4) (s 4) (w 4))) (mm x (c 5) (s 5) (w 5))) (mm x (c 6) (s 6) (w 6))) (mm x (c 7) (s 7) (w 7))) (mm x (c 8) (s 8) (w 8))) (mm x (c 9) (s 9) (w 9))) (mm x (c 10) (s 10) (w 10))) (mm x (c 11) (s 11) (w 11))) (mm x (c 12) (s 12) (w 12))) (mm x (c 13) (s 13) (w 13))) (mm x (c 14) (s 14) (w 14))) (mm x (c 15) (s 15) (w 15)))
    (broadcastTo S256x256 (shapeCast S1x256 bias shapeCasts_S1x256_S1x256) broadcasts_S1x256_S256x256))) bitsLt_bf16_f32

/-- The output block the body leaves is that function of the loaded rows and slabs (the printed body regrouped; every
    step of the regrouping is an unfolding of definitions). -/
theorem out_eq_body (x0 : Vec F S256x1024 .f32) (x1 x2 : Vec F S16x1024 .f32) (x3 : Vec F S1024x16x256 .bf16) (x4 : Vec F S1x256 .f32) :
    out0_5 x0 x1 x2 x3 x4 = View.canon [⟨r0_34, body (View.ld x0 r0_0)
      (![View.ld x1 r0_1, View.ld x1 r0_3, View.ld x1 r0_5, View.ld x1 r0_7, View.ld x1 r0_9, View.ld x1 r0_11, View.ld x1 r0_13, View.ld x1 r0_15, View.ld x1 r0_17, View.ld x1 r0_19, View.ld x1 r0_21, View.ld x1 r0_23, View.ld x1 r0_25, View.ld x1 r0_27, View.ld x1 r0_29, View.ld x1 r0_31] : Fin 16 → Vec F S1x1024 .f32)
      (![View.ld x2 r0_1, View.ld x2 r0_3, View.ld x2 r0_5, View.ld x2 r0_7, View.ld x2 r0_9, View.ld x2 r0_11, View.ld x2 r0_13, View.ld x2 r0_15, View.ld x2 r0_17, View.ld x2 r0_19, View.ld x2 r0_21, View.ld x2 r0_23, View.ld x2 r0_25, View.ld x2 r0_27, View.ld x2 r0_29, View.ld x2 r0_31] : Fin 16 → Vec F S1x1024 .f32)
      (![View.ld x3 r0_2, View.ld x3 r0_4, View.ld x3 r0_6, View.ld x3 r0_8, View.ld x3 r0_10, View.ld x3 r0_12, View.ld x3 r0_14, View.ld x3 r0_16, View.ld x3 r0_18, View.ld x3 r0_20, View.ld x3 r0_22, View.ld x3 r0_24, View.ld x3 r0_26, View.ld x3 r0_28, View.ld x3 r0_30, View.ld x3 r0_32] : Fin 16 → Vec F S1024x1x256 .bf16)
      (View.ld x4 r0_33)⟩] := rfl

end Vocabulary

section AtIdeal

/-- The kernel's product record is the plain product of a 256×1024 by a 1024×256 matrix. -/
theorem dot_plain : dot_S256x1024_S1024x256_S256x256_1_0_0_1_n_n = DotDims.plain 256 1024 256 := rfl

/-- A feature block at (p, i): the centre and scale rows are read at i whatever the row p. -/
theorem feats_apply (x : Vec Ideal S256x1024 .f32) (cr sr : Vec Ideal S1x1024 .f32) (p : Fin 256) (i : Fin 1024) :
    feats x cr sr (ix2 p i) = Ideal.tanh ((x (ix2 p i) - cr (ix2 0 i)) * sr (ix2 0 i)) := by
  unfold feats
  rw [truncf_apply]
  show FloatOps.tanh (mulf _ _ (ix2 p i)) = _
  rw [mulf_apply, subf_apply, shapeCast_shapeCast, shapeCast_shapeCast, broadcastTo_1b_ab_apply, broadcastTo_1b_ab_apply]
  rfl

/-- The product at (p, q): the sum over the 1024 features; the slab's unit middle axis is read at 0. -/
theorem prod_apply (f : FVec Ideal S256x1024 .bf16) (w : Vec Ideal S1024x1x256 .bf16) (p q : Fin 256) :
    prod f w (ix2 p q) = ∑ i : Fin 1024, f (ix2 p i) * w (ix3 i 0 q) := by
  unfold prod
  rw [dot_plain, LibPlainMatmul.matmul_plain_zero_apply]
  refine Finset.sum_congr rfl fun i _ => ?_
  congr 1
  exact shapeCast_apply w _ (ix2 i q) (ix3 i 0 q) (by
    rw [Shape.rowMajor_val_three, Shape.rowMajor_val_two]
    show (i.val * 1 + 0) * 256 + q.val = i.val * 256 + q.val
    omega)

theorem mm_apply (x : Vec Ideal S256x1024 .f32) (cr sr : Vec Ideal S1x1024 .f32) (w : Vec Ideal S1024x1x256 .bf16) (p q : Fin 256) :
    mm x cr sr w (ix2 p q) = ∑ i : Fin 1024, Ideal.tanh ((x (ix2 p i) - cr (ix2 0 i)) * sr (ix2 0 i)) * w (ix3 i 0 q) := by
  unfold mm
  rw [prod_apply]
  simp only [feats_apply]

/-- The body's block at (p, q). -/
theorem body_apply (x : Vec Ideal S256x1024 .f32) (c s : Fin 16 → Vec Ideal S1x1024 .f32) (w : Fin 16 → Vec Ideal S1024x1x256 .bf16)
    (bias : Vec Ideal S1x256 .f32) (p q : Fin 256) :
    body x c s w bias (ix2 p q)
      = Ideal.logistic ((∑ b : Fin 16, ∑ i : Fin 1024, Ideal.tanh ((x (ix2 p i) - c b (ix2 0 i)) * s b (ix2 0 i)) * w b (ix3 i 0 q)) + bias (ix2 0 q)) := by
  rw [← Cert.Kan.chain16 (fun b => ∑ i : Fin 1024, Ideal.tanh ((x (ix2 p i) - c b (ix2 0 i)) * s b (ix2 0 i)) * w b (ix3 i 0 q))]
  unfold body
  rw [truncf_apply]
  show FloatOps.logistic (addf _ _ (ix2 p q)) = _
  simp only [addf_apply, mm_apply, shapeCast_self, broadcastTo_1b_ab_apply, broadcast_apply]
  show Ideal.logistic ((Ideal.ofBits .f32 0x00000000#32 + _ + _ + _ + _ + _ + _ + _ + _ + _ + _ + _ + _ + _ + _ + _ + _) + _) = _
  rw [Ideal.ofBits_zero_f32]

end AtIdeal

end Cert.KernelIdeal.Basis

end
-- ==== Proof.Basis.lean ====
/-
  The first kernel (basis expansion, hidden layer, logistic): the array its write-backs leave, entry by entry.

  Grid point t = (n, m) of the 16 × 16 grid reads rows 256·m … 256·m + 255 of x, all sixteen centre and scale rows, the
  slab of weights into units 256·n … 256·n + 255 and that stretch of the bias row, and writes block (m, n) of the
  activations: so entry (r, j) of the array is written by the point with m = r / 256 and n = j / 256, and holds the
  activation of row r at unit j.
-/
import proofs.«172397_j53283364274889_1_alg».proof.Proof.BasisBody

set_option maxRecDepth 16384

noncomputable section

namespace Cert.KernelIdeal.Basis

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The activations as one function of the arrays the region finds. -/
abbrev act (c : Dev nD) : S4096x4096.Idx → Elt Ideal .bf16 := fun o =>
  Cert.Kan.phiF (fun r i => V c main_arg0 (ix2 r i)) (fun b i => V c main_v0 (ix2 b i)) (fun b i => V c main_v1 (ix2 b i))
    (fun i b j => V c main_v3 (ix3 i b j)) (fun j => V c main_v4 (ix2 0 j)) (o 0) (o 1)

/-- Which block of each operand a grid point reads, decided over the 256 points: the output's block is (t mod 16, t div 16);
    x moves with the output's rows; the weights and the bias move with the output's columns; the centres and scales stay. -/
theorem idx_facts : ∀ t : Fin cfg0.N, win0_5.index t (0 : Fin 2) = t.val % 16 ∧ win0_5.index t (1 : Fin 2) = t.val / 16
    ∧ win0_0.index t (0 : Fin 2) = t.val % 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val / 16
    ∧ win0_4.index t (0 : Fin 2) = 0 ∧ win0_4.index t (1 : Fin 2) = t.val / 16 :=
  (by decide +kernel : ∀ t : Fin grid0.N, _)

/-- x's block at a point, read at (p, i): row 256·(t mod 16) + p of x. -/
theorem read_x (c : Dev nD) (t : Fin cfg0.N) (p : Fin 256) (i : Fin 1024) (r : Fin 4096) (hr : r.val = t.val % 16 * 256 + p.val) :
    iblk0 V c 0 t (ix2 p i) = V c main_arg0 (ix2 r i) := by
  show V c main_arg0 (((cfg0.win 0).blk t).view.emb (ix2 p i)) = V c main_arg0 (ix2 r i)
  refine congrArg (V c main_arg0) (funext fun a => Fin.ext ?_)
  obtain ⟨-, -, e0, e1, -⟩ := idx_facts t
  match a with
  | ⟨0, _⟩ => show win0_0.index t (0 : Fin 2) * 256 + 1 * p.val = r.val; omega
  | ⟨1, _⟩ => show win0_0.index t (1 : Fin 2) * 1024 + 1 * i.val = i.val; omega

/-- The centres' block is the whole array. -/
theorem read_c (c : Dev nD) (t : Fin cfg0.N) (b : Fin 16) (i : Fin 1024) :
    iblk0 V c 1 t (ix2 b i) = V c main_v0 (ix2 b i) := by
  show V c main_v0 (((cfg0.win 1).blk t).view.emb (ix2 b i)) = V c main_v0 (ix2 b i)
  refine congrArg (V c main_v0) (funext fun a => Fin.ext ?_)
  obtain ⟨-, -, -, -, e0, e1, -⟩ := idx_facts t
  match a with
  | ⟨0, _⟩ => show win0_1.index t (0 : Fin 2) * 16 + 1 * b.val = b.val; omega
  | ⟨1, _⟩ => show win0_1.index t (1 : Fin 2) * 1024 + 1 * i.val = i.val; omega

/-- The scales' block is the whole array. -/
theorem read_s (c : Dev nD) (t : Fin cfg0.N) (b : Fin 16) (i : Fin 1024) :
    iblk0 V c 2 t (ix2 b i) = V c main_v1 (ix2 b i) := by
  show V c main_v1 (((cfg0.win 2).blk t).view.emb (ix2 b i)) = V c main_v1 (ix2 b i)
  refine congrArg (V c main_v1) (funext fun a => Fin.ext ?_)
  obtain ⟨-, -, -, -, -, -, e0, e1, -⟩ := idx_facts t
  match a with
  | ⟨0, _⟩ => show win0_2.index t (0 : Fin 2) * 16 + 1 * b.val = b.val; omega
  | ⟨1, _⟩ => show win0_2.index t (1 : Fin 2) * 1024 + 1 * i.val = i.val; omega

/-- The weights' block at a point, read at (i, b, q): unit 256·(t div 16) + q. -/
theorem read_w (c : Dev nD) (t : Fin cfg0.N) (i : Fin 1024) (b : Fin 16) (q : Fin 256) (j : Fin 4096) (hj : j.val = t.val / 16 * 256 + q.val) :
    iblk0 V c 3 t (ix3 i b q) = V c main_v3 (ix3 i b j) := by
  show V c main_v3 (((cfg0.win 3).blk t).view.emb (ix3 i b q)) = V c main_v3 (ix3 i b j)
  refine congrArg (V c main_v3) (funext fun a => Fin.ext ?_)
  obtain ⟨-, -, -, -, -, -, -, -, e0, e1, e2, -⟩ := idx_facts t
  match a with
  | ⟨0, _⟩ => show win0_3.index t (0 : Fin 3) * 1024 + 1 * i.val = i.val; omega
  | ⟨1, _⟩ => show win0_3.index t (1 : Fin 3) * 16 + 1 * b.val = b.val; omega
  | ⟨2, _⟩ => show win0_3.index t (2 : Fin 3) * 256 + 1 * q.val = j.val; omega

/-- The bias row's block at a point, read at (0, q). -/
theorem read_bias (c : Dev nD) (t : Fin cfg0.N) (q : Fin 256) (j : Fin 4096) (hj : j.val = t.val / 16 * 256 + q.val) :
    iblk0 V c 4 t (ix2 0 q) = V c main_v4 (ix2 0 j) := by
  show V c main_v4 (((cfg0.win 4).blk t).view.emb (ix2 0 q)) = V c main_v4 (ix2 0 j)
  refine congrArg (V c main_v4) (funext fun a => Fin.ext ?_)
  obtain ⟨-, -, -, -, -, -, -, -, -, -, -, e0, e1⟩ := idx_facts t
  match a with
  | ⟨0, _⟩ => show win0_4.index t (0 : Fin 2) * 1 + 1 * 0 = 0; omega
  | ⟨1, _⟩ => show win0_4.index t (1 : Fin 2) * 256 + 1 * q.val = j.val; omega

/-- A load of centre or scale row b out of the sixteen, read at (0, i). -/
theorem ld_row (X : Vec Ideal S16x1024 .f32) (b : Fin 16) (inb : ∀ a, (![b.val, 0] : Fin 2 → Nat) a + S1x1024.size a ≤ S16x1024.size a) (i : Fin 1024) :
    View.ld X (Rect.unit (s := S16x1024) ![b.val, 0] S1x1024.size inb) (ix2 0 i) = X (ix2 b i) := by
  show X _ = X _
  refine congrArg X (funext fun a => Fin.ext ?_)
  match a with
  | ⟨0, _⟩ => show b.val + 1 * 0 = b.val; omega
  | ⟨1, _⟩ => show 0 + 1 * i.val = i.val; omega

/-- A load of basis b's slab of weights, read at (i, 0, q). -/
theorem ld_slab (X : Vec Ideal S1024x16x256 .bf16) (b : Fin 16) (inb : ∀ a, (![0, b.val, 0] : Fin 3 → Nat) a + S1024x1x256.size a ≤ S1024x16x256.size a)
    (i : Fin 1024) (q : Fin 256) :
    View.ld X (Rect.unit (s := S1024x16x256) ![0, b.val, 0] S1024x1x256.size inb) (ix3 i 0 q) = X (ix3 i b q) := by
  show X _ = X _
  refine congrArg X (funext fun a => Fin.ext ?_)
  match a with
  | ⟨0, _⟩ => show 0 + 1 * i.val = i.val; omega
  | ⟨1, _⟩ => show b.val + 1 * 0 = b.val; omega
  | ⟨2, _⟩ => show 0 + 1 * q.val = q.val; omega

/-- The sixteen loaded centre rows, row b read at (0, i): the centres' array at (b, i). -/
theorem rows_c (c : Dev nD) (t : Fin cfg0.N) (b : Fin 16) (i : Fin 1024) :
    (![View.ld (iblk0 V c 1 t) r0_1, View.ld (iblk0 V c 1 t) r0_3, View.ld (iblk0 V c 1 t) r0_5, View.ld (iblk0 V c 1 t) r0_7, View.ld (iblk0 V c 1 t) r0_9, View.ld (iblk0 V c 1 t) r0_11, View.ld (iblk0 V c 1 t) r0_13, View.ld (iblk0 V c 1 t) r0_15, View.ld (iblk0 V c 1 t) r0_17, View.ld (iblk0 V c 1 t) r0_19, View.ld (iblk0 V c 1 t) r0_21, View.ld (iblk0 V c 1 t) r0_23, View.ld (iblk0 V c 1 t) r0_25, View.ld (iblk0 V c 1 t) r0_27, View.ld (iblk0 V c 1 t) r0_29, View.ld (iblk0 V c 1 t) r0_31] : Fin 16 → Vec Ideal S1x1024 .f32) b (ix2 0 i) = V c main_v0 (ix2 b i) := by
  fin_cases b
  · exact (ld_row _ 0 _ i).trans (read_c V c t 0 i)
  · exact (ld_row _ 1 _ i).trans (read_c V c t 1 i)
  · exact (ld_row _ 2 _ i).trans (read_c V c t 2 i)
  · exact (ld_row _ 3 _ i).trans (read_c V c t 3 i)
  · exact (ld_row _ 4 _ i).trans (read_c V c t 4 i)
  · exact (ld_row _ 5 _ i).trans (read_c V c t 5 i)
  · exact (ld_row _ 6 _ i).trans (read_c V c t 6 i)
  · exact (ld_row _ 7 _ i).trans (read_c V c t 7 i)
  · exact (ld_row _ 8 _ i).trans (read_c V c t 8 i)
  · exact (ld_row _ 9 _ i).trans (read_c V c t 9 i)
  · exact (ld_row _ 10 _ i).trans (read_c V c t 10 i)
  · exact (ld_row _ 11 _ i).trans (read_c V c t 11 i)
  · exact (ld_row _ 12 _ i).trans (read_c V c t 12 i)
  · exact (ld_row _ 13 _ i).trans (read_c V c t 13 i)
  · exact (ld_row _ 14 _ i).trans (read_c V c t 14 i)
  · exact (ld_row _ 15 _ i).trans (read_c V c t 15 i)

/-- The sixteen loaded scale rows, row b read at (0, i): the scales' array at (b, i). -/
theorem rows_s (c : Dev nD) (t : Fin cfg0.N) (b : Fin 16) (i : Fin 1024) :
    (![View.ld (iblk0 V c 2 t) r0_1, View.ld (iblk0 V c 2 t) r0_3, View.ld (iblk0 V c 2 t) r0_5, View.ld (iblk0 V c 2 t) r0_7, View.ld (iblk0 V c 2 t) r0_9, View.ld (iblk0 V c 2 t) r0_11, View.ld (iblk0 V c 2 t) r0_13, View.ld (iblk0 V c 2 t) r0_15, View.ld (iblk0 V c 2 t) r0_17, View.ld (iblk0 V c 2 t) r0_19, View.ld (iblk0 V c 2 t) r0_21, View.ld (iblk0 V c 2 t) r0_23, View.ld (iblk0 V c 2 t) r0_25, View.ld (iblk0 V c 2 t) r0_27, View.ld (iblk0 V c 2 t) r0_29, View.ld (iblk0 V c 2 t) r0_31] : Fin 16 → Vec Ideal S1x1024 .f32) b (ix2 0 i) = V c main_v1 (ix2 b i) := by
  fin_cases b
  · exact (ld_row _ 0 _ i).trans (read_s V c t 0 i)
  · exact (ld_row _ 1 _ i).trans (read_s V c t 1 i)
  · exact (ld_row _ 2 _ i).trans (read_s V c t 2 i)
  · exact (ld_row _ 3 _ i).trans (read_s V c t 3 i)
  · exact (ld_row _ 4 _ i).trans (read_s V c t 4 i)
  · exact (ld_row _ 5 _ i).trans (read_s V c t 5 i)
  · exact (ld_row _ 6 _ i).trans (read_s V c t 6 i)
  · exact (ld_row _ 7 _ i).trans (read_s V c t 7 i)
  · exact (ld_row _ 8 _ i).trans (read_s V c t 8 i)
  · exact (ld_row _ 9 _ i).trans (read_s V c t 9 i)
  · exact (ld_row _ 10 _ i).trans (read_s V c t 10 i)
  · exact (ld_row _ 11 _ i).trans (read_s V c t 11 i)
  · exact (ld_row _ 12 _ i).trans (read_s V c t 12 i)
  · exact (ld_row _ 13 _ i).trans (read_s V c t 13 i)
  · exact (ld_row _ 14 _ i).trans (read_s V c t 14 i)
  · exact (ld_row _ 15 _ i).trans (read_s V c t 15 i)

/-- The sixteen loaded slabs of weights, slab b read at (i, 0, q): the weights' array at (i, b, unit). -/
theorem slabs_w (c : Dev nD) (t : Fin cfg0.N) (b : Fin 16) (i : Fin 1024) (q : Fin 256) (j : Fin 4096) (hj : j.val = t.val / 16 * 256 + q.val) :
    (![View.ld (iblk0 V c 3 t) r0_2, View.ld (iblk0 V c 3 t) r0_4, View.ld (iblk0 V c 3 t) r0_6, View.ld (iblk0 V c 3 t) r0_8, View.ld (iblk0 V c 3 t) r0_10, View.ld (iblk0 V c 3 t) r0_12, View.ld (iblk0 V c 3 t) r0_14, View.ld (iblk0 V c 3 t) r0_16, View.ld (iblk0 V c 3 t) r0_18, View.ld (iblk0 V c 3 t) r0_20, View.ld (iblk0 V c 3 t) r0_22, View.ld (iblk0 V c 3 t) r0_24, View.ld (iblk0 V c 3 t) r0_26, View.ld (iblk0 V c 3 t) r0_28, View.ld (iblk0 V c 3 t) r0_30, View.ld (iblk0 V c 3 t) r0_32] : Fin 16 → Vec Ideal S1024x1x256 .bf16) b (ix3 i 0 q) = V c main_v3 (ix3 i b j) := by
  fin_cases b
  · exact (ld_slab _ 0 _ i q).trans (read_w V c t i 0 q j hj)
  · exact (ld_slab _ 1 _ i q).trans (read_w V c t i 1 q j hj)
  · exact (ld_slab _ 2 _ i q).trans (read_w V c t i 2 q j hj)
  · exact (ld_slab _ 3 _ i q).trans (read_w V c t i 3 q j hj)
  · exact (ld_slab _ 4 _ i q).trans (read_w V c t i 4 q j hj)
  · exact (ld_slab _ 5 _ i q).trans (read_w V c t i 5 q j hj)
  · exact (ld_slab _ 6 _ i q).trans (read_w V c t i 6 q j hj)
  · exact (ld_slab _ 7 _ i q).trans (read_w V c t i 7 q j hj)
  · exact (ld_slab _ 8 _ i q).trans (read_w V c t i 8 q j hj)
  · exact (ld_slab _ 9 _ i q).trans (read_w V c t i 9 q j hj)
  · exact (ld_slab _ 10 _ i q).trans (read_w V c t i 10 q j hj)
  · exact (ld_slab _ 11 _ i q).trans (read_w V c t i 11 q j hj)
  · exact (ld_slab _ 12 _ i q).trans (read_w V c t i 12 q j hj)
  · exact (ld_slab _ 13 _ i q).trans (read_w V c t i 13 q j hj)
  · exact (ld_slab _ 14 _ i q).trans (read_w V c t i 14 q j hj)
  · exact (ld_slab _ 15 _ i q).trans (read_w V c t i 15 q j hj)

/-- The loaded block of x at (p, i). -/
theorem ld_x (c : Dev nD) (t : Fin cfg0.N) (p : Fin 256) (i : Fin 1024) (r : Fin 4096) (hr : r.val = t.val % 16 * 256 + p.val) :
    View.ld (iblk0 V c 0 t) r0_0 (ix2 p i) = V c main_arg0 (ix2 r i) :=
  (congrFun (View.ld_unit_zero (S := S256x1024) zeros2 _ _) _).trans (read_x V c t p i r hr)

/-- The loaded stretch of the bias row at (0, q). -/
theorem ld_bias (c : Dev nD) (t : Fin cfg0.N) (q : Fin 256) (j : Fin 4096) (hj : j.val = t.val / 16 * 256 + q.val) :
    View.ld (iblk0 V c 4 t) r0_33 (ix2 0 q) = V c main_v4 (ix2 0 j) :=
  (congrFun (View.ld_unit_zero (S := S1x256) zeros2 _ _) _).trans (read_bias V c t q j hj)

/-- WHAT POINT t WRITES BACK is block t of the activations. -/
theorem flushed_eq (c : Dev nD) (t : Fin cfg0.N) :
    (dat0 (F := Ideal) V c).flushed 5 t = ((cfg0.win 5).blk t).view.read (Elt Ideal) (act V c) := by
  show (cfg0.win 5).cut (grid0.coords t) ((dat0 V c).after 5 t) = _
  rw [after0_5, out_eq_body, View.canon_unit_zero zeros2]
  funext y
  have hy0 : (y 0).val < 256 := (y 0).isLt
  have hy1 : (y 1).val < 256 := (y 1).isLt
  obtain ⟨e0, e1, -⟩ := idx_facts t
  have ht : t.val < 256 := lt_of_lt_of_eq t.isLt N_0
  have hx : (cfg0.win 5).xinj (grid0.coords t) y = ix2 (⟨(y 0).val, hy0⟩ : Fin 256) (⟨(y 1).val, hy1⟩ : Fin 256) :=
    funext fun a => Fin.ext (by match a with | ⟨0, _⟩ => rfl | ⟨1, _⟩ => rfl)
  have he : ((cfg0.win 5).blk t).view.emb y
      = ix2 (⟨t.val % 16 * 256 + (y 0).val, by omega⟩ : Fin 4096) (⟨t.val / 16 * 256 + (y 1).val, by omega⟩ : Fin 4096) :=
    funext fun a => Fin.ext (by
      match a with
      | ⟨0, _⟩ => show win0_5.index t (0 : Fin 2) * 256 + 1 * (y 0).val = t.val % 16 * 256 + (y 0).val; omega
      | ⟨1, _⟩ => show win0_5.index t (1 : Fin 2) * 256 + 1 * (y 1).val = t.val / 16 * 256 + (y 1).val; omega)
  show body (F := Ideal) _ _ _ _ _ ((cfg0.win 5).xinj (grid0.coords t) y) = act V c (((cfg0.win 5).blk t).view.emb y)
  rw [hx, he, body_apply]
  show _ = Ideal.logistic ((∑ b : Fin 16, ∑ i : Fin 1024, _) + _)
  refine congrArg Ideal.logistic (congrArg₂ (· + ·) (Finset.sum_congr rfl fun b _ => Finset.sum_congr rfl fun i _ => ?_) ?_)
  · have h1 := ld_x V c t ⟨(y 0).val, hy0⟩ i ⟨t.val % 16 * 256 + (y 0).val, by omega⟩ rfl
    have h2 := rows_c V c t b i
    have h3 := rows_s V c t b i
    have h4 := slabs_w V c t b i ⟨(y 1).val, hy1⟩ ⟨t.val / 16 * 256 + (y 1).val, by omega⟩ rfl
    exact congrArg₂ (· * ·) (congrArg Ideal.tanh (congrArg₂ (· * ·) (congrArg₂ (· - ·) h1 h2) h3)) h4
  · exact ld_bias V c t ⟨(y 1).val, hy1⟩ ⟨t.val / 16 * 256 + (y 1).val, by omega⟩ rfl

/-- An index of the activations' array is in point t's block iff each coordinate is in the block's range on its axis. -/
theorem mem_blk (t : Fin cfg0.N) (i : S4096x4096.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v7).slice (win0_5.rect t)).set ↔ _
  rw [View.set_slice_whole, Rect.mem_set_unit]
  exact Iff.rfl

/-- Every entry is in the block of the point (row / 256, column / 256), and every point writes back. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  let t : Fin cfg0.N := ⟨(i 1).val / 256 * 16 + (i 0).val / 256, by rw [show cfg0.N = 256 from N_0]; omega⟩
  have tv : t.val = (i 1).val / 256 * 16 + (i 0).val / 256 := rfl
  obtain ⟨e0, e1, -⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- The activations' array after the first region. -/
theorem final (c : Dev nD) :
    (dat0 (F := Ideal) V c).arrAt 5 cfg0.N = fun o =>
      Cert.Kan.phiF (fun r i => V c main_arg0 (ix2 r i)) (fun b i => V c main_v0 (ix2 b i)) (fun b i => V c main_v1 (ix2 b i))
        (fun i b j => V c main_v3 (ix3 i b j)) (fun j => V c main_v4 (ix2 0 j)) (o 0) (o 1) :=
  (dat0 (F := Ideal) V c).arrAt_eq_of_cover 5 (act V c) (fun t _ => flushed_eq V c t) cover

end Cert.KernelIdeal.Basis

end
-- ==== Proof.Head.lean ====
/-
  The second kernel (the head): the array its write-backs leave is, entry by entry, row r of the activations against
  column n of the head's weights, plus the head's bias — as a function of the arrays the region finds.
-/
import proofs.«172397_j53283364274889_1_alg».proof.Proof.Gen.KernelIdeal.Frame
import proofs.«172397_j53283364274889_1_alg».proof.Proof.Spec
import proofs.«172397_j53283364274889_1_alg».proof.Proof.LibPlainMatmul
import Idealize.ShloMosaic.Lib.Pipeline.Value
import Idealize.ShloMosaic.Lib.ValueLayout

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The head's product contracts the left operand's columns with the right operand's rows, with no batch axis. -/
theorem dims_plain : dot_S512x4096_S4096x1000_S512x1000_1_0_0_1_n_n = DotDims.plain 512 4096 1000 := rfl

/-- The body's arithmetic at the entry (p, n): row p of the left block against column n of the right array, plus the
    bias row's entry n. -/
theorem pay_apply (x0 : Vec Ideal S512x4096 .bf16) (x1 : Vec Ideal S4096x1000 .bf16) (x2 : Vec Ideal S1x1000 .f32)
    (p : Fin 512) (n : Fin 1000) :
    k1_pay1 x0 x1 x2 (ix2 p n) = (∑ j : Fin 4096, x0 (ix2 p j) * x1 (ix2 j n)) + x2 (ix2 0 n) := by
  unfold k1_pay1
  simp only [shapeCast_self]
  rw [addf_apply, dims_plain, Idealize.ShloMosaic.LibPlainMatmul.matmul_plain_zero_apply]
  congr 1
  refine broadcastTo_apply _ _ _ _ fun a => ?_
  match a with
  | ⟨0, _⟩ => rfl
  | ⟨1, _⟩ => rfl

/-- The two zero offsets, as the constant zero function. -/
theorem hz : (![0, 0] : Fin 2 → Nat) = fun _ => 0 := funext fun a => by fin_cases a <;> rfl

/-- The index maps over the eight points: the activations' and the result's blocks move down with the point, the
    head's weights and bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has eight points. -/
theorem pt_lt (t : Fin cfg1.N) : t.val < 8 := Nat.lt_of_lt_of_eq t.isLt N_1

/-- The head as one function of the arrays the region finds. -/
abbrev headOut (c : Dev nD) : S4096x1000.Idx → EReal := fun o =>
  Cert.Kan.logitsF (fun r j => V c main_v7 (ix2 r j)) (fun j n => V c main_v5 (ix2 j n)) (fun n => V c main_v6 (ix2 0 n)) (o 0) (o 1)

/-- The activations' block at point t is rows 512·t … 512·t + 511. -/
theorem blk0_apply (c : Dev nD) (t : Fin cfg1.N) (p : Fin 512) (j : Fin 4096) (h : 512 * t.val + p.val < 4096) :
    iblk1 V c 0 t (ix2 p j) = V c main_v7 (ix2 ⟨512 * t.val + p.val, h⟩ j) := by
  obtain ⟨e0, e1, -⟩ := idx_facts t
  unfold iblk1
  rw [View.read_apply]
  show V c main_v7 _ = V c main_v7 _
  refine congrArg _ (funext fun a => Fin.ext ?_)
  match a with
  | ⟨0, _⟩ => show win1_0.index t (0 : Fin 2) * 512 + 1 * p.val = 512 * t.val + p.val; omega
  | ⟨1, _⟩ => show win1_0.index t (1 : Fin 2) * 4096 + 1 * j.val = j.val; omega

/-- The head's weights are read whole at every point. -/
theorem blk1_apply (c : Dev nD) (t : Fin cfg1.N) (j : Fin 4096) (n : Fin 1000) :
    iblk1 V c 1 t (ix2 j n) = V c main_v5 (ix2 j n) := by
  obtain ⟨-, -, e2, e3, -⟩ := idx_facts t
  unfold iblk1
  rw [View.read_apply]
  show V c main_v5 _ = V c main_v5 _
  refine congrArg _ (funext fun a => Fin.ext ?_)
  match a with
  | ⟨0, _⟩ => show win1_1.index t (0 : Fin 2) * 4096 + 1 * j.val = j.val; omega
  | ⟨1, _⟩ => show win1_1.index t (1 : Fin 2) * 1000 + 1 * n.val = n.val; omega

/-- So is the bias row. -/
theorem blk2_apply (c : Dev nD) (t : Fin cfg1.N) (n : Fin 1000) :
    iblk1 V c 2 t (ix2 0 n) = V c main_v6 (ix2 0 n) := by
  obtain ⟨-, -, -, -, e4, e5, -⟩ := idx_facts t
  unfold iblk1
  rw [View.read_apply]
  show V c main_v6 _ = V c main_v6 _
  refine congrArg _ (funext fun a => Fin.ext ?_)
  match a with
  | ⟨0, _⟩ => show win1_2.index t (0 : Fin 2) * 1 + 1 * 0 = 0; omega
  | ⟨1, _⟩ => show win1_2.index t (1 : Fin 2) * 1000 + 1 * n.val = n.val; omega

/-- The body's result at point t and entry (p, n) is the head at row 512·t + p and class n. -/
theorem pay_blocks (c : Dev nD) (t : Fin cfg1.N) (p : Fin 512) (n : Fin 1000) (h : 512 * t.val + p.val < 4096) :
    k1_pay1 (iblk1 V c 0 t) (iblk1 V c 1 t) (iblk1 V c 2 t) (ix2 p n)
      = headOut V c (ix2 ⟨512 * t.val + p.val, h⟩ n) := by
  refine (pay_apply _ _ _ p n).trans ?_
  show _ = Cert.Kan.logitsF _ _ _ ⟨512 * t.val + p.val, h⟩ n
  unfold Cert.Kan.logitsF
  rw [blk2_apply V c t n]
  congr 1
  refine Finset.sum_congr rfl fun j _ => ?_
  rw [blk0_apply V c t p j h, blk1_apply V c t j n]

/-- What point t writes back is block t of the head. -/
theorem flushed_eq (c : Dev nD) (t : Fin cfg1.N) :
    (dat1 (F := Ideal) V c).flushed 3 t = ((cfg1.win 3).blk t).view.read (Elt Ideal) (headOut V c) := by
  show (cfg1.win 3).cut (grid1.coords t) ((dat1 V c).after 3 t) = _
  rw [after1_3]
  unfold out1_3
  rw [View.canon_unit_zero hz]
  simp only [View.ld_unit_zero (S := S512x4096) hz, View.ld_unit_zero (S := S4096x1000) hz, View.ld_unit_zero (S := S1x1000) hz]
  obtain ⟨-, -, -, -, -, -, e6, e7⟩ := idx_facts t
  have ht := pt_lt t
  funext y
  have hy0 : (y 0).val < 512 := (y 0).isLt
  have hy1 : (y 1).val < 1000 := (y 1).isLt
  show k1_pay1 (iblk1 V c 0 t) (iblk1 V c 1 t) (iblk1 V c 2 t) ((cfg1.win 3).xinj (grid1.coords t) y)
      = headOut V c (((cfg1.win 3).blk t).view.emb y)
  have hx : (cfg1.win 3).xinj (grid1.coords t) y = ix2 (n0 := 512) (n1 := 1000) ⟨(y 0).val, hy0⟩ ⟨(y 1).val, hy1⟩ :=
    funext fun a => Fin.ext (by match a with | ⟨0, _⟩ => rfl | ⟨1, _⟩ => rfl)
  have he : ((cfg1.win 3).blk t).view.emb y = ix2 (n0 := 4096) (n1 := 1000) ⟨512 * t.val + (y 0).val, by omega⟩ ⟨(y 1).val, hy1⟩ :=
    funext fun a => Fin.ext (by
      match a with
      | ⟨0, _⟩ => show win1_3.index t (0 : Fin 2) * 512 + 1 * (y 0).val = 512 * t.val + (y 0).val; omega
      | ⟨1, _⟩ => show win1_3.index t (1 : Fin 2) * 1000 + 1 * (y 1).val = (y 1).val; omega)
  rw [hx, he]
  exact pay_blocks V c t _ _ _

/-- An entry of the result is in point t's block iff each coordinate is in the block's range on its axis. -/
theorem mem_blk (t : Fin cfg1.N) (i : S4096x1000.Idx) :
    i ∈ ((cfg1.win 3).blk t).view.set ↔ ∀ a : Fin 2, win1_3.index t a * S512x1000.size a ≤ (i a).val ∧ (i a).val < win1_3.index t a * S512x1000.size a + S512x1000.size a := by
  show i ∈ ((View.whole main_v8).slice (win1_3.rect t)).set ↔ _
  rw [View.set_slice_whole, Rect.mem_set_unit]
  exact Iff.rfl

/-- Every entry is in some point's block: row r is in the block of point r / 512. -/
theorem cover (i : S4096x1000.Idx) :
    ∃ t : Fin cfg1.N, (cfg1.win 3).flush t = true ∧ i ∈ ((cfg1.win 3).blk t).view.set := by
  have hi0 : (i 0).val < 4096 := (i 0).isLt
  have hi1 : (i 1).val < 1000 := (i 1).isLt
  obtain ⟨t, ht⟩ : ∃ t : Fin cfg1.N, t.val = (i 0).val / 512 :=
    ⟨⟨(i 0).val / 512, Nat.lt_of_lt_of_eq (by omega : (i 0).val / 512 < 8) N_1.symm⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1000 ≤ (i 1).val ∧ (i 1).val < win1_3.index t (1 : Fin 2) * 1000 + 1000; omega

/-- The result array after the head's region. -/
theorem final (c : Dev nD) :
    (dat1 (F := Ideal) V c).arrAt 3 cfg1.N = fun o =>
      Cert.Kan.logitsF (fun r j => V c main_v7 (ix2 r j)) (fun j n => V c main_v5 (ix2 j n)) (fun n => V c main_v6 (ix2 0 n)) (o 0) (o 1) :=
  (dat1 (F := Ideal) V c).arrAt_eq_of_cover 3 (headOut V c) (fun t _ => flushed_eq V c t) cover

end Cert.KernelIdeal.Head

end
-- ==== Proof.HostVals.lean ====
/-
  What the host operations before the first kernel leave in the buffers the two kernels read, entry by entry, in terms of
  the launch memory: two transposes, a reshape of the basis weights to (feature, basis, unit), two biases as one-row
  matrices, and changes of float format (the identity on the extended reals); and which buffers the two regions leave
  as they found them.
-/
import proofs.«172397_j53283364274889_1_alg».proof.Proof.Gen.KernelIdeal.Frame
import proofs.«172397_j53283364274889_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- No host operation writes the input's buffer: it holds what it held at the launch. -/
theorem V1_arg0 (c : Dev nD) : V1 m ρ c main_arg0 = m ((c : Thread nD τ).loc main_arg0) := by
  show StableHlo.after hostOps0 (W0 m ρ c) (Proc.devRef .tc main_arg0) = _
  dsimp only [hostOps0]
  after_results <;> rfl

/-- The centres' buffer as a whole: the transpose of the launch's centres. -/
theorem V1_v0_eq (c : Dev nD) : (V1 m ρ c main_v0 : S16x1024.Idx → EReal)
    = transpose S16x1024 [1, 0] (m ((c : Thread nD τ).loc main_arg1)) transposes_S1024x16_S16x1024_1_0 := by
  show StableHlo.after hostOps0 (W0 m ρ c) (Proc.devRef .tc main_v0) = _
  dsimp only [hostOps0]
  after_results <;> rfl
/-- Entry (b, i) of the transposed centres is entry (i, b) of the launch's. -/
theorem V1_v0 (c : Dev nD) (b : Fin 16) (i : Fin 1024) : V1 m ρ c main_v0 (ix2 b i) = m ((c : Thread nD τ).loc main_arg1) (ix2 i b) := by
  exact (congrFun (V1_v0_eq m ρ c) (ix2 b i)).trans (transpose_ix2_apply _ _ b i)

/-- The scales' buffer as a whole: the transpose of the launch's scales. -/
theorem V1_v1_eq (c : Dev nD) : (V1 m ρ c main_v1 : S16x1024.Idx → EReal)
    = transpose S16x1024 [1, 0] (m ((c : Thread nD τ).loc main_arg2)) transposes_S1024x16_S16x1024_1_0 := by
  show StableHlo.after hostOps0 (W0 m ρ c) (Proc.devRef .tc main_v1) = _
  dsimp only [hostOps0]
  after_results <;> rfl
/-- Entry (b, i) of the transposed scales is entry (i, b) of the launch's. -/
theorem V1_v1 (c : Dev nD) (b : Fin 16) (i : Fin 1024) : V1 m ρ c main_v1 (ix2 b i) = m ((c : Thread nD τ).loc main_arg2) (ix2 i b) := by
  exact (congrFun (V1_v1_eq m ρ c) (ix2 b i)).trans (transpose_ix2_apply _ _ b i)

/-- The basis weights' buffer as a whole: the launch's weights, their format narrowed, reshaped to
    (feature, basis, unit). -/
theorem V1_v3_eq (c : Dev nD) : (V1 m ρ c main_v3 : S1024x16x4096.Idx → EReal)
    = shapeCast S1024x16x4096 (truncf .bf16 (m ((c : Thread nD τ).loc main_arg3) : FVec Ideal S16384x4096 .f32) bitsLt_bf16_f32 : FVec Ideal S16384x4096 .bf16)
        shapeCasts_S16384x4096_S1024x16x4096 := by
  show StableHlo.after hostOps0 (W0 m ρ c) (Proc.devRef .tc main_v3) = _
  dsimp only [hostOps0]
  after_results <;> rfl
/-- Entry (i, b, j) of the reshaped weights is entry (16·i + b, j) of the launch's: the two have the same row-major
    position, (16·i + b)·4096 + j, and the change of format is the identity on the extended reals. -/
theorem V1_v3 (c : Dev nD) (i : Fin 1024) (b : Fin 16) (j : Fin 4096) :
    V1 m ρ c main_v3 (ix3 i b j) = m ((c : Thread nD τ).loc main_arg3) (ix2 (Cert.Kan.pairPos i b) j) := by
  refine (congrFun (V1_v3_eq m ρ c) (ix3 i b j)).trans ?_
  refine (shapeCast_apply _ shapeCasts_S16384x4096_S1024x16x4096 (ix3 i b j) (ix2 (Cert.Kan.pairPos i b) j) ?_).trans ?_
  · rw [Shape.rowMajor_val_three, Shape.rowMajor_val_two]
    show (i.val * 16 + b.val) * 4096 + j.val = (i.val * 16 + b.val) * 4096 + j.val
    rfl
  · rfl

/-- The hidden bias's buffer as a whole: the launch's bias as a one-row matrix. -/
theorem V1_v4_eq (c : Dev nD) : (V1 m ρ c main_v4 : S1x4096.Idx → EReal)
    = shapeCast S1x4096 (m ((c : Thread nD τ).loc main_arg4) : S4096.Idx → EReal) shapeCasts_S4096_S1x4096 := by
  show StableHlo.after hostOps0 (W0 m ρ c) (Proc.devRef .tc main_v4) = _
  dsimp only [hostOps0]
  after_results <;> rfl
/-- Entry (0, j) of the one-row matrix is entry j of the launch's bias. -/
theorem V1_v4 (c : Dev nD) (j : Fin 4096) : V1 m ρ c main_v4 (ix2 0 j) = m ((c : Thread nD τ).loc main_arg4) (ix1 j) := by
  exact (congrFun (V1_v4_eq m ρ c) (ix2 0 j)).trans (shapeCast_a_1a_apply _ _ 0 j)

/-- The head's weights' buffer as a whole: the launch's weights, their format narrowed. -/
theorem V1_v5_eq (c : Dev nD) : (V1 m ρ c main_v5 : S4096x1000.Idx → EReal)
    = (truncf .bf16 (m ((c : Thread nD τ).loc main_arg5) : FVec Ideal S4096x1000 .f32) bitsLt_bf16_f32 : FVec Ideal S4096x1000 .bf16) := by
  show StableHlo.after hostOps0 (W0 m ρ c) (Proc.devRef .tc main_v5) = _
  dsimp only [hostOps0]
  after_results <;> rfl
/-- The first region leaves the head's weights as it found them, and the change of format is the identity on the
    extended reals. -/
theorem V2_v5 (c : Dev nD) (j : Fin 4096) (n : Fin 1000) : V2 m ρ c main_v5 (ix2 j n) = m ((c : Thread nD τ).loc main_arg5) (ix2 j n) := by
  have h2 : V2 m ρ c main_v5 = V1 m ρ c main_v5 := W2_of_ne m ρ c main_v5 (by decide)
  rw [h2]
  exact congrFun (V1_v5_eq m ρ c) (ix2 j n)

/-- The head's bias's buffer as a whole: the launch's bias as a one-row matrix. -/
theorem V1_v6_eq (c : Dev nD) : (V1 m ρ c main_v6 : S1x1000.Idx → EReal)
    = shapeCast S1x1000 (m ((c : Thread nD τ).loc main_arg6) : S1000.Idx → EReal) shapeCasts_S1000_S1x1000 := by
  show StableHlo.after hostOps0 (W0 m ρ c) (Proc.devRef .tc main_v6) = _
  dsimp only [hostOps0]
  after_results <;> rfl
/-- The first region leaves the head's bias as it found it; entry (0, n) of the one-row matrix is entry n of the
    launch's bias. -/
theorem V2_v6 (c : Dev nD) (n : Fin 1000) : V2 m ρ c main_v6 (ix2 0 n) = m ((c : Thread nD τ).loc main_arg6) (ix1 n) := by
  have h2 : V2 m ρ c main_v6 = V1 m ρ c main_v6 := W2_of_ne m ρ c main_v6 (by decide)
  rw [h2]
  exact (congrFun (V1_v6_eq m ρ c) (ix2 0 n)).trans (shapeCast_a_1a_apply _ _ 0 n)

/-- The hidden activations' buffer is the first region's sixth array: at its exit it holds what the region's
    write-backs leave. -/
theorem V2_v7 (c : Dev nD) : V2 m ρ c main_v7 = (dat0 (V1 m ρ) c).arrAt 5 cfg0.N := by
  exact W2_arr m ρ c 5

/-- The result's buffer is the second region's fourth array: at its exit it holds what the region's write-backs
    leave. -/
theorem W3_v8 (c : Dev nD) : W3 m ρ c (Proc.devRef .tc main_v8) = (dat1 (V2 m ρ) c).arrAt 3 cfg1.N := by
  exact W3_arr m ρ c 3

end Cert.KernelIdeal.HostVals

end
-- ==== Proof.KernelValue.lean ====
/-
  The kernel program's result buffer at the end of its run, entry by entry, is the classifier's function
  `Cert.Kan.result` of the seven arguments as launched: the head's region leaves row r of the activations against column n
  of the head's weights plus the head's bias; the activations are what the first region left; and the arrays the two
  regions read are the arguments re-laid by the host operations (transposed centres and scales, the basis weights as
  (feature, basis, unit), the biases as one-row matrices).
-/
import proofs.«172397_j53283364274889_1_alg».proof.Proof.KernelRun
import proofs.«172397_j53283364274889_1_alg».proof.Proof.Basis
import proofs.«172397_j53283364274889_1_alg».proof.Proof.Head
import proofs.«172397_j53283364274889_1_alg».proof.Proof.HostVals

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The activations the head reads are the hidden layer's function of the launched arguments. -/
theorem activations_eq (c : Dev nD) :
    (fun (r : Fin 4096) (j : Fin 4096) => V2 m ρ c main_v7 (ix2 r j))
      = Cert.Kan.phiF (fun r i => (m ((c : Thread nD τ).loc main_arg0)) (ix2 r i)) (fun b i => (m ((c : Thread nD τ).loc main_arg1)) (ix2 i b))
          (fun b i => (m ((c : Thread nD τ).loc main_arg2)) (ix2 i b)) (fun i b j => (m ((c : Thread nD τ).loc main_arg3)) (ix2 (Cert.Kan.pairPos i b) j))
          (fun j => (m ((c : Thread nD τ).loc main_arg4)) (ix1 j)) := by
  have e0 : (fun (r : Fin 4096) (i : Fin 1024) => V1 m ρ c main_arg0 (ix2 r i)) = fun r i => (m ((c : Thread nD τ).loc main_arg0)) (ix2 r i) := by
    funext r i; rw [HostVals.V1_arg0]
  have e1 : (fun (b : Fin 16) (i : Fin 1024) => V1 m ρ c main_v0 (ix2 b i)) = fun b i => (m ((c : Thread nD τ).loc main_arg1)) (ix2 i b) := by
    funext b i; exact HostVals.V1_v0 m ρ c b i
  have e2 : (fun (b : Fin 16) (i : Fin 1024) => V1 m ρ c main_v1 (ix2 b i)) = fun b i => (m ((c : Thread nD τ).loc main_arg2)) (ix2 i b) := by
    funext b i; exact HostVals.V1_v1 m ρ c b i
  have e3 : (fun (i : Fin 1024) (b : Fin 16) (j : Fin 4096) => V1 m ρ c main_v3 (ix3 i b j))
      = fun i b j => (m ((c : Thread nD τ).loc main_arg3)) (ix2 (Cert.Kan.pairPos i b) j) := by
    funext i b j; exact HostVals.V1_v3 m ρ c i b j
  have e4 : (fun (j : Fin 4096) => V1 m ρ c main_v4 (ix2 0 j)) = fun j => (m ((c : Thread nD τ).loc main_arg4)) (ix1 j) := by
    funext j; exact HostVals.V1_v4 m ρ c j
  funext r j
  rw [HostVals.V2_v7 m ρ c, Basis.final (V1 m ρ) c]
  show Cert.Kan.phiF (fun r i => V1 m ρ c main_arg0 (ix2 r i)) (fun b i => V1 m ρ c main_v0 (ix2 b i)) (fun b i => V1 m ρ c main_v1 (ix2 b i))
      (fun i b j => V1 m ρ c main_v3 (ix3 i b j)) (fun j => V1 m ρ c main_v4 (ix2 0 j)) r j = _
  rw [e0, e1, e2, e3, e4]

/-- The result buffer after the run. -/
theorem result_eq (c : Dev nD) :
    W3 m ρ c (Proc.devRef .tc main_v8)
      = Cert.Kan.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e5 : (fun (j : Fin 4096) (n : Fin 1000) => V2 m ρ c main_v5 (ix2 j n)) = fun j n => (m ((c : Thread nD τ).loc main_arg5)) (ix2 j n) := by
    funext j n; exact HostVals.V2_v5 m ρ c j n
  have e6 : (fun (n : Fin 1000) => V2 m ρ c main_v6 (ix2 0 n)) = fun n => (m ((c : Thread nD τ).loc main_arg6)) (ix1 n) := by
    funext n; exact HostVals.V2_v6 m ρ c n
  rw [HostVals.W3_v8 m ρ c, Head.final (V2 m ρ) c, activations_eq m ρ c, e5, e6]
  rfl

end Cert.KernelIdeal.Whole

end
-- ==== Proof.lean ====
/-
  Kernel against reference for a classifier with a tanh basis expansion: both programs compute, on the extended reals,

      result r n = Σ_j logistic( Σ_{(i,b)} tanh((x r i − c i b) · s i b) · Wb (16·i + b) j + bb j ) · Wh j n + bh n .

  The kernel program transposes the centres and scales, views the basis weights as (feature, basis, unit), and runs two
  kernels: the first, over a 16 × 16 grid of 256 × 256 blocks, sums the pairs (i, b) basis by basis (sixteen products of a
  256 × 1024 block of features with a 1024 × 256 slab of weights, added up from zero), adds the bias and applies the
  logistic function; the second, over 8 blocks of 512 rows, multiplies the activations by the head's weights and adds the
  head's bias. The reference lays the pairs out along one axis of length 16384 and contracts over it, and spells the
  logistic function 1 / (1 + exp(−h)). Changes of float format are the identity on the extended reals, a sum does not
  depend on the order or the grouping of its terms, and 1 / (1 + exp(−h)) is what the logistic function is: so the two
  results are one function of the arguments (`Cert.Kan.result`), with no use of the finiteness of the inputs.

  Modules: Spec (the function and the regrouping of the sum), RefValue (the reference's result is it), BasisBody and Basis
  (the first kernel's array), Head (the second kernel's array), HostVals (what the host operations leave), KernelRun
  (the kernel program's run with its result buffer named), KernelValue (that buffer is the function).
-/
import proofs.«172397_j53283364274889_1_alg».proof.Defs
import proofs.«172397_j53283364274889_1_alg».proof.Proof.Gen.Kernel
import proofs.«172397_j53283364274889_1_alg».proof.Proof.Gen.Kernel.Skeleton
import proofs.«172397_j53283364274889_1_alg».proof.Proof.Gen.Kernel.Launch
import proofs.«172397_j53283364274889_1_alg».proof.Proof.Gen.Kernel.Points
import proofs.«172397_j53283364274889_1_alg».proof.Proof.Gen.Kernel.Frame
import proofs.«172397_j53283364274889_1_alg».proof.Proof.Gen.KernelIdeal
import proofs.«172397_j53283364274889_1_alg».proof.Proof.Gen.KernelIdeal.Skeleton
import proofs.«172397_j53283364274889_1_alg».proof.Proof.Gen.KernelIdeal.Launch
import proofs.«172397_j53283364274889_1_alg».proof.Proof.Gen.KernelIdeal.Points
import proofs.«172397_j53283364274889_1_alg».proof.Proof.Gen.KernelIdeal.Frame
import proofs.«172397_j53283364274889_1_alg».proof.Proof.Gen.ReferenceIdeal
import proofs.«172397_j53283364274889_1_alg».proof.Proof.Gen.Pre_finite_inputs
import proofs.«172397_j53283364274889_1_alg».proof.Proof.Gen.ReferenceIdeal.Run
import proofs.«172397_j53283364274889_1_alg».proof.Proof.Gen.ReferenceIdeal.Read
import proofs.«172397_j53283364274889_1_alg».proof.Proof.RefValue
import proofs.«172397_j53283364274889_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result buffers at the classifier's function of the arguments, which agree. -/
theorem algebraic : Cert.algebraic_KernelIdeal_ReferenceIdeal := by
  intro m ρ m' ρ' _ hagree
  refine ⟨fun c => Cert.Kan.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.ref_result,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
